-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x64 : Shape := ⟨3, ![4, 1024, 64]⟩
abbrev S_ : Shape := ⟨0, ![]⟩

class Facts : Prop where
  bcast_S_S4x1024x64 : S_.BroadcastsInDim S4x1024x64 (![] : Fin 0 → Fin S4x1024x64.rank)
  reducesTo_S4x1024x64_S_d0_1_2 : S4x1024x64.ReducesTo [0, 1, 2] S_
  h_S_ : 0 < S_.numel

variable [Facts]

def fn {F : FTy → Type} [FloatOps F] (main_arg0 : FVec F S4x1024x64 .f32) (main_arg1 : FVec F S4x1024x64 .f32) : IVec S_ 1 :=
  let main_v0 : FVec F S4x1024x64 .f32 := Host.absf main_arg0
  let main_cst : FVec F S_ .f32 := constant S_ .f32 0x7F800000#32
  let main_v1 : FVec F S4x1024x64 .f32 := broadcastInDim S4x1024x64 ![] bcast_S_S4x1024x64 main_cst
  let main_v2 : IVec S4x1024x64 1 := cmpf .olt main_v0 main_v1
  let main_c : IVec S_ 1 := constantI S_ 1 1#1
  let main_v3 : IVec S_ 1 := (fun x v => Host.reduce IntOp.andi x v reducesTo_S4x1024x64_S_d0_1_2 h_S_) main_v2 main_c
  let main_v4 : FVec F S4x1024x64 .f32 := Host.absf main_arg1
  let main_cst_0 : FVec F S_ .f32 := constant S_ .f32 0x7F800000#32
  let main_v5 : FVec F S4x1024x64 .f32 := broadcastInDim S4x1024x64 ![] bcast_S_S4x1024x64 main_cst_0
  let main_v6 : IVec S4x1024x64 1 := cmpf .olt main_v4 main_v5
  let main_c_1 : IVec S_ 1 := constantI S_ 1 1#1
  let main_v7 : IVec S_ 1 := (fun x v => Host.reduce IntOp.andi x v reducesTo_S4x1024x64_S_d0_1_2 h_S_) main_v6 main_c_1
  let main_v8 : IVec S_ 1 := andi main_v3 main_v7
  main_v8
-- ==== Kernel.lean ====
abbrev S4x1024x64 : Shape := ⟨3, ![4, 1024, 64]⟩
abbrev S4x1024x1024 : Shape := ⟨3, ![4, 1024, 1024]⟩
abbrev S1x128x64 : Shape := ⟨3, ![1, 128, 64]⟩
abbrev S1x128x128 : Shape := ⟨3, ![1, 128, 128]⟩
abbrev S128x64 : Shape := ⟨2, ![128, 64]⟩
abbrev S128x1x64 : Shape := ⟨3, ![128, 1, 64]⟩
abbrev S128x128x64 : Shape := ⟨3, ![128, 128, 64]⟩
abbrev S128x128 : Shape := ⟨2, ![128, 128]⟩

abbrev nBuf : Space → Nat
  | .hbm => 3
  | .vmem => 6
  | .smem => 0
  | _ => 0

abbrev bufTy : (tb : Table) → Fin (tcTables nBuf tb) → BufTy
  | .hbm, ⟨0, _⟩ => ⟨S4x1024x64, .f32⟩
  | .hbm, ⟨1, _⟩ => ⟨S4x1024x64, .f32⟩
  | .hbm, ⟨2, _⟩ => ⟨S4x1024x1024, .f32⟩
  | .local _ .vmem, ⟨0, _⟩ => ⟨S1x128x64, .f32⟩
  | .local _ .vmem, ⟨1, _⟩ => ⟨S1x128x64, .f32⟩
  | .local _ .vmem, ⟨2, _⟩ => ⟨S1x128x64, .f32⟩
  | .local _ .vmem, ⟨3, _⟩ => ⟨S1x128x64, .f32⟩
  | .local _ .vmem, ⟨4, _⟩ => ⟨S1x128x128, .f32⟩
  | .local _ .vmem, ⟨5, _⟩ => ⟨S1x128x128, .f32⟩
  | _, _ => ⟨S4x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  shapeCasts_S128x64_S128x1x64 : S128x64.ShapeCasts S128x1x64
  shapeCasts_S128x64_S1x128x64 : S128x64.ShapeCasts S1x128x64
  broadcasts_S128x1x64_S128x128x64 : S128x1x64.Broadcasts S128x128x64
  broadcasts_S1x128x64_S128x128x64 : S1x128x64.Broadcasts S128x128x64
  reduces_S128x128x64_S128x128 : S128x128x64.Reduces [2] S128x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x64.size a ≤ S4x1024x64.size a
  hwx0_0 : ∀ i : grid0.Coords, EltTy.bits .f32 = 32 ∨ (Rect.block (s := S4x1024x64) S1x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x64.size a ≤ S4x1024x64.size a
  hwx0_1 : ∀ i : grid0.Coords, EltTy.bits .f32 = 32 ∨ (Rect.block (s := S4x1024x64) S1x128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128.size a ≤ S4x1024x1024.size a
  hwx0_2 : ∀ i : grid0.Coords, EltTy.bits .f32 = 32 ∨ (Rect.block (s := S4x1024x1024) S1x128x128.size (cc0_transform_2 i) (hinb0_2 i)).WholeWords (EltTy.packing .f32)

variable [Facts₀]

abbrev win0_0 : Pipeline.Window sig grid0 :=
  Pipeline.Window.ofSpec (Memref.whole main_arg0) S1x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x1024x64 : Shape := ⟨3, ![4, 1024, 64]⟩
abbrev S4x1024x1x64 : Shape := ⟨4, ![4, 1024, 1, 64]⟩
abbrev S4x1x1024x64 : Shape := ⟨4, ![4, 1, 1024, 64]⟩
abbrev S4x1024x1024x64 : Shape := ⟨4, ![4, 1024, 1024, 64]⟩
abbrev S_ : Shape := ⟨0, ![]⟩
abbrev S4x1024x1024 : Shape := ⟨3, ![4, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4x1024x64, .f32⟩
  | .hbm, ⟨1, _⟩ => ⟨S4x1024x64, .f32⟩
  | .hbm, ⟨2, _⟩ => ⟨S4x1024x1x64, .f32⟩
  | .hbm, ⟨3, _⟩ => ⟨S4x1x1024x64, .f32⟩
  | .hbm, ⟨4, _⟩ => ⟨S4x1024x1024x64, .f32⟩
  | .hbm, ⟨5, _⟩ => ⟨S4x1024x1024x64, .f32⟩
  | .hbm, ⟨6, _⟩ => ⟨S4x1024x1024x64, .f32⟩
  | .hbm, ⟨7, _⟩ => ⟨S4x1024x1024x64, .f32⟩
  | .hbm, ⟨8, _⟩ => ⟨S_, .f32⟩
  | .hbm, ⟨9, _⟩ => ⟨S4x1024x1024, .f32⟩
  | .hbm, ⟨10, _⟩ => ⟨S4x1024x1024, .f32⟩
  | _, _ => ⟨S4x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  bcast_S4x1024x64_S4x1024x1x64_0_1_3 : S4x1024x64.BroadcastsInDim S4x1024x1x64 (![0, 1, 3] : Fin 3 → Fin S4x1024x1x64.rank)
  bcast_S4x1024x64_S4x1x1024x64_0_2_3 : S4x1024x64.BroadcastsInDim S4x1x1024x64 (![0, 2, 3] : Fin 3 → Fin S4x1x1024x64.rank)
  bcast_S4x1024x1x64_S4x1024x1024x64_0_1_2_3 : S4x1024x1x64.BroadcastsInDim S4x1024x1024x64 (![0, 1, 2, 3] : Fin 4 → Fin S4x1024x1024x64.rank)
  bcast_S4x1x1024x64_S4x1024x1024x64_0_1_2_3 : S4x1x1024x64.BroadcastsInDim S4x1024x1024x64 (![0, 1, 2, 3] : Fin 4 → Fin S4x1024x1024x64.rank)
  reducesTo_S4x1024x1024x64_S4x1024x1024_d3 : S4x1024x1024x64.ReducesTo [3] S4x1024x1024
  h_S_ : 0 < S_.numel

variable [Facts₀]

class Facts : Prop extends Facts₀ where

variable [Facts]
-- ==== Proof.SadSpec.lean ====
/-
  The sum of absolute differences as ONE function of the two argument arrays.

  For a batch `b`, a row `n` of the left array and a row `m` of the right array, entry `(b, n, m)` of the result is
  minus the sum, over the 64 features `d`, of `|lhs[b, n, d] - rhs[b, m, d]|`, taken on the extended reals, where the
  absolute value of `x` is `max x (-x)`. Both programs compute this function of their arguments. The kernel subtracts
  the sum from zero where the reference negates it: on the extended reals `0 - s = 0 + (-s) = -s` for EVERY `s`, the
  infinite ones included, so no finiteness of the inputs is used anywhere.
-/
import Idealize.ShloMosaic.PureOps.Ideal
import Idealize.ShloMosaic.Lib.ValueIdx

noncomputable section

open scoped BigOperators

namespace Cert.Sad

open Idealize.ShloMosaic Idealize.ShloMosaic.ValueIdx

/-- The shape of each argument array: 4 batches of 1024 rows of 64 features. -/
abbrev SIn : Shape := ⟨3, ![4, 1024, 64]⟩
/-- The shape of the result: per batch, one entry per pair of a left row and a right row. -/
abbrev SOut : Shape := ⟨3, ![4, 1024, 1024]⟩

/-- The distance of two extended reals, `|x - y|` with the absolute value spelled `max · (-·)`. -/
def absDiff (x y : EReal) : EReal := max (x - y) (-(x - y))

/-- Entry `(b, n, m)` of the result: minus the sum over the features of the distances between left row `n` and right
    row `m` of batch `b`. -/
def sadAt (lhs rhs : SIn.Idx → EReal) (b : Fin 4) (n m : Fin 1024) : EReal :=
  -(∑ d : Fin 64, absDiff (lhs (ix3 b n d)) (rhs (ix3 b m d)))

/-- The whole result array. -/
def sad (lhs rhs : SIn.Idx → EReal) : SOut.Idx → EReal :=
  fun i => sadAt lhs rhs (i 0) (i 1) (i 2)

/-- The result array at an index given by its coordinates. -/
theorem sad_ix3 (lhs rhs : SIn.Idx → EReal) (b : Fin 4) (n m : Fin 1024) :
    sad lhs rhs (ix3 b n m) = sadAt lhs rhs b n m := rfl

/-- Subtracting from zero is negating, at every extended real. -/
theorem zero_sub_eq_neg (s : EReal) : 0 - s = -s := by
  rw [sub_eq_add_neg, zero_add]

end Cert.Sad

end
-- ==== Proof.SadBlock.lean ====
/-
  One grid point's block of the kernel, read at an index.

  At a grid point the body holds a block `P0` of 128 left rows and a block `P1` of 128 right rows, each row of 64
  features. It spreads the left rows along a new middle axis and the right rows along a new leading axis, so that entry
  `(n, m, d)` of the first spread array is `P0[n, d]` and of the second is `P1[m, d]`; subtracts; takes absolute values;
  sums over the last axis; and subtracts the sum from zero. So entry `(n, m)` of the stored block is
  `0 - ∑ d, |P0[n, d] - P1[m, d]|`, which is `-∑ d, |P0[n, d] - P1[m, d]|`.
-/
import proofs.«132920_j37383395344618_1_alg».proof.Proof.Gen.KernelIdeal.Value
import proofs.«132920_j37383395344618_1_alg».proof.Proof.SadSpec
import Idealize.ShloMosaic.PureOps.Ideal.Laws
import Idealize.ShloMosaic.Lib.ValueLayout

noncomputable section

open scoped BigOperators

namespace Cert.Sad.Block

open Cert.KernelIdeal Cert.KernelIdeal.Gen Idealize.ShloMosaic Idealize.ShloMosaic.ValueIdx

/-- The left rows spread along the middle axis: entry `(n, m, d)` is row `n`, feature `d`, whatever `m` is. -/
theorem left_at (P0 : Vec Ideal S1x128x64 .f32) (n m : Fin 128) (d : Fin 64) :
    broadcastTo S128x128x64 (shapeCast S128x1x64 (shapeCast S128x64 P0 shapeCasts_S1x128x64_S128x64) shapeCasts_S128x64_S128x1x64)
        broadcasts_S128x1x64_S128x128x64 (ix3 n m d)
      = P0 (ix3 (0 : Fin 1) n d) := by
  refine (broadcastTo_apply _ _ (ix3 n m d) (ix3 n (0 : Fin 1) d) (fun a => ?_)).trans ?_
  · match a with
    | ⟨0, _⟩ => show n.val = if (128 : Nat) = 1 then 0 else n.val; rw [if_neg (by decide)]
    | ⟨1, _⟩ => show (0 : Nat) = if (1 : Nat) = 1 then 0 else m.val; rw [if_pos rfl]
    | ⟨2, _⟩ => show d.val = if (64 : Nat) = 1 then 0 else d.val; rw [if_neg (by decide)]
  · refine (shapeCast_apply _ _ (ix3 n (0 : Fin 1) d) (ix2 n d) (by
      rw [Shape.rowMajor_val_two, Shape.rowMajor_val_three]
      show n.val * 64 + d.val = (n.val * 1 + 0) * 64 + d.val
      omega)).trans ?_
    exact shapeCast_1ab_ab_apply P0 _ n d

/-- The right rows spread along the leading axis: entry `(n, m, d)` is row `m`, feature `d`, whatever `n` is. -/
theorem right_at (P1 : Vec Ideal S1x128x64 .f32) (n m : Fin 128) (d : Fin 64) :
    broadcastTo S128x128x64 (shapeCast S1x128x64 (shapeCast S128x64 P1 shapeCasts_S1x128x64_S128x64) shapeCasts_S128x64_S1x128x64)
        broadcasts_S1x128x64_S128x128x64 (ix3 n m d)
      = P1 (ix3 (0 : Fin 1) m d) := by
  refine (broadcastTo_apply _ _ (ix3 n m d) (ix3 (0 : Fin 1) m d) (fun a => ?_)).trans ?_
  · match a with
    | ⟨0, _⟩ => show (0 : Nat) = if (1 : Nat) = 1 then 0 else n.val; rw [if_pos rfl]
    | ⟨1, _⟩ => show m.val = if (128 : Nat) = 1 then 0 else m.val; rw [if_neg (by decide)]
    | ⟨2, _⟩ => show d.val = if (64 : Nat) = 1 then 0 else d.val; rw [if_neg (by decide)]
  · refine (shapeCast_ab_1ab_apply _ _ (0 : Fin 1) m d).trans ?_
    exact shapeCast_1ab_ab_apply P1 _ m d

/-- The sum over the last axis of a [128, 128, 64] array, at `(n, m)`, is the sum over the 64 features `d` of the array at
    `(n, m, d)`. -/
theorem lane_sum (src : FVec Ideal S128x128x64 .f32) (n m : Fin 128) :
    multiReduction .add [2] S128x128 src 0x00000000#32 reduces_S128x128x64_S128x128 (.inl rfl) rfl (ix2 n m)
      = ∑ d : Fin 64, src (ix3 n m d) :=
  (Ideal.multiReduction_add_single src 0x00000000#32 reduces_S128x128x64_S128x128 (.inl rfl) rfl (ix2 n m)).trans
    (Finset.sum_congr rfl fun d _ => congrArg src (funext fun a => Fin.ext (by
      match a with | ⟨0, _⟩ => rfl | ⟨1, _⟩ => rfl | ⟨2, _⟩ => rfl)))

/-- THE BLOCK AT AN INDEX: what the body stores at `(u, n, m)` of its [1, 128, 128] block is minus the sum over the
    features of the distances between left row `n` and right row `m` of the two loaded blocks. -/
theorem block_at (P0 P1 : Vec Ideal S1x128x64 .f32) (u : Fin 1) (n m : Fin 128) :
    k0_pay1 (F := Ideal) P0 P1 (ix3 u n m)
      = -(∑ d : Fin 64, absDiff (P0 (ix3 (0 : Fin 1) n d)) (P1 (ix3 (0 : Fin 1) m d))) := by
  rw [Cert.KernelIdeal.Value.lay2_0_eq P0 P1]
  refine (shapeCast_ab_1ab_apply _ _ u n m).trans ?_
  refine Eq.trans ?_ (zero_sub_eq_neg _)
  rw [subf_apply, broadcast_apply, lane_sum]
  congr 1
  · exact Ideal.ofBits_zero_f32
  · refine Finset.sum_congr rfl fun d _ => ?_
    unfold absDiff
    rw [← left_at P0 n m d, ← right_at P1 n m d]
    rfl

end Cert.Sad.Block

end
-- ==== Proof.SadSchedule.lean ====
/-
  How the three windows move over the 4 × 8 × 8 grid.

  At grid point `(b, i, j)` the left window is block `(b, i, 0)` of the left array, the right window is block `(b, j, 0)`
  of the right array, and the output window is block `(b, i, j)` of the result. So the left window shares the output's
  batch and row-block, the right window shares the output's batch and takes the output's column-block as its row-block,
  neither is split along the features, and every block `(b, i, j)` of the result belongs to some grid point. These are
  finitely many facts about the printed index maps, decided over the 256 grid points.
-/
import proofs.«132920_j37383395344618_1_alg».proof.Proof.Gen.KernelIdeal.Frame

noncomputable section

namespace Cert.Sad.Schedule

open Cert.KernelIdeal Cert.KernelIdeal.Gen Idealize.ShloMosaic

/-- The input windows' block indices in terms of the output window's, and the output's ranges, at every grid point. -/
theorem idx_facts : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = win0_2.index t (2 : Fin 3)
    ∧ win0_1.index t (2 : Fin 3) = 0
    ∧ win0_2.index t (0 : Fin 3) ≤ 3
    ∧ win0_2.index t (1 : Fin 3) ≤ 7
    ∧ win0_2.index t (2 : Fin 3) ≤ 7 :=
  (by decide +kernel : ∀ t : Fin grid0.N, _)

/-- Every block `(q0, q1, q2)` of the result is some grid point's output block. -/
theorem idx_onto : ∀ (q0 : Fin 4) (q1 : Fin 8) (q2 : Fin 8), ∃ t : Fin cfg0.N, win0_2.index t = ![q0.val, q1.val, q2.val] :=
  (by decide +kernel : ∀ (q0 : Fin 4) (q1 : Fin 8) (q2 : Fin 8), ∃ t : Fin grid0.N, win0_2.index t = ![q0.val, q1.val, q2.val])

end Cert.Sad.Schedule

end
-- ==== Proof.SadArray.lean ====
/-
  From the blocks to the whole result array.

  Grid point `t` writes back, into block `t` of the result, what the body computed from block `t` of the left array and
  block `t` of the right array. The left window's block has the output block's batch and rows, the right window's block
  has the output block's batch and, as its rows, the output block's columns; so entry `(u, n, k)` of the written block is
  minus the sum over the features of the distances between the left array's row and the right array's row that the
  result's index under `(u, n, k)` names: block `t` of the written data is block `t` of the sum of absolute differences
  of the two WHOLE argument arrays. The 4 × 8 × 8 output blocks of sizes 1 × 128 × 128 tile the [4, 1024, 1024] result
  (the point that covers `(b, r, s)` is the one with block index `(b, r / 128, s / 128)`), so after the run the result
  array is that function everywhere.
-/
import proofs.«132920_j37383395344618_1_alg».proof.Proof.Gen.KernelIdeal.Value
import proofs.«132920_j37383395344618_1_alg».proof.Proof.SadBlock
import proofs.«132920_j37383395344618_1_alg».proof.Proof.SadSchedule
import Idealize.ShloMosaic.Lib.Pipeline.Value

noncomputable section

open scoped BigOperators

namespace Cert.Sad.Array

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body's loads and its store start at the origin of their buffers. -/
theorem zeros3 : (![0, 0, 0] : Fin 3 → Nat) = fun _ => 0 := funext fun a => by fin_cases a <;> rfl

/-- WHAT POINT `t` WRITES BACK is block `t` of the sum of absolute differences of the two argument arrays as the
    region finds them. -/
theorem flushed_eq (c : Dev nD) (t : Fin cfg0.N) :
    (dats m 0 c).flushed 2 t
      = ((cfg0.win 2).blk t).view.read (Elt Ideal) (Cert.Sad.sad (V m c main_arg0) (V m c main_arg1)) := by
  rw [Cert.KernelIdeal.Value.flushed2]
  unfold out0_2
  rw [View.canon_unit_zero zeros3]
  simp only [View.ld_unit_zero (S := S1x128x64) zeros3]
  obtain ⟨e0, e1, e2, e3, e4, e5, -, -, -⟩ := Cert.Sad.Schedule.idx_facts t
  have key : ∀ j : S1x128x128.Idx, k0_pay1 (F := Ideal) (iblk m c 0 t) (iblk m c 1 t) j
      = Cert.Sad.sad (V m c main_arg0) (V m c main_arg1) (((cfg0.win 2).blk t).view.emb j) := by
    intro j
    obtain ⟨u, n, k, rfl⟩ : ∃ (u : Fin 1) (n k : Fin 128), j = ix3 u n k := ⟨j 0, j 1, j 2, eq_ix3 j⟩
    refine (Cert.Sad.Block.block_at (iblk m c 0 t) (iblk m c 1 t) u n k).trans ?_
    unfold Cert.Sad.sad Cert.Sad.sadAt
    refine congrArg Neg.neg (Finset.sum_congr rfl fun d _ => ?_)
    refine congrArg₂ Cert.Sad.absDiff ?_ ?_
    · -- the left block's row `n` is the left array's row under the output block's row `n`
      show V m c main_arg0 (((cfg0.win 0).blk t).view.emb (ix3 (0 : Fin 1) n d)) = V m c main_arg0 _
      refine congrArg (V m c main_arg0) (funext fun a => Fin.ext ?_)
      have hu : u.val = 0 := by omega
      match a with
      | ⟨0, _⟩ =>
        show win0_0.index t (0 : Fin 3) * 1 + 1 * 0 = win0_2.index t (0 : Fin 3) * 1 + 1 * u.val
        omega
      | ⟨1, _⟩ =>
        show win0_0.index t (1 : Fin 3) * 128 + 1 * n.val = win0_2.index t (1 : Fin 3) * 128 + 1 * n.val
        omega
      | ⟨2, _⟩ =>
        show win0_0.index t (2 : Fin 3) * 64 + 1 * d.val = d.val
        omega
    · -- the right block's row `k` is the right array's row under the output block's column `k`
      show V m c main_arg1 (((cfg0.win 1).blk t).view.emb (ix3 (0 : Fin 1) k d)) = V m c main_arg1 _
      refine congrArg (V m c main_arg1) (funext fun a => Fin.ext ?_)
      have hu : u.val = 0 := by omega
      match a with
      | ⟨0, _⟩ =>
        show win0_1.index t (0 : Fin 3) * 1 + 1 * 0 = win0_2.index t (0 : Fin 3) * 1 + 1 * u.val
        omega
      | ⟨1, _⟩ =>
        show win0_1.index t (1 : Fin 3) * 128 + 1 * k.val = win0_2.index t (2 : Fin 3) * 128 + 1 * k.val
        omega
      | ⟨2, _⟩ =>
        show win0_1.index t (2 : Fin 3) * 64 + 1 * d.val = d.val
        omega
  funext j
  exact key j

/-- An index of the result is in point `t`'s output block iff each coordinate is in the block's range on its axis. -/
theorem mem_blk (t : Fin cfg0.N) (i : S4x1024x1024.Idx) :
    i ∈ ((cfg0.win 2).blk t).view.set
      ↔ ∀ a : Fin 3, win0_2.index t a * S1x128x128.size a ≤ (i a).val
          ∧ (i a).val < win0_2.index t a * S1x128x128.size a + S1x128x128.size a := by
  show i ∈ ((View.whole main_v0).slice (win0_2.rect t)).set ↔ _
  rw [View.set_slice_whole, Rect.mem_set_unit]
  exact Iff.rfl

/-- THE OUTPUT BLOCKS TILE THE RESULT: index `(b, r, s)` is in the block of the point whose block index is
    `(b, r / 128, s / 128)`, and every point writes its block back. -/
theorem covered (i : S4x1024x1024.Idx) :
    ∃ t : Fin cfg0.N, (cfg0.win 2).flush t = true ∧ i ∈ ((cfg0.win 2).blk t).view.set := by
  have hi0 : (i 0).val < 4 := (i 0).isLt
  have hi1 : (i 1).val < 1024 := (i 1).isLt
  have hi2 : (i 2).val < 1024 := (i 2).isLt
  obtain ⟨t, ht⟩ := Cert.Sad.Schedule.idx_onto ⟨(i 0).val, hi0⟩ ⟨(i 1).val / 128, by omega⟩ ⟨(i 2).val / 128, by omega⟩
  have q0 : win0_2.index t (0 : Fin 3) = (i 0).val := congrFun ht 0
  have q1 : win0_2.index t (1 : Fin 3) = (i 1).val / 128 := congrFun ht 1
  have q2 : win0_2.index t (2 : Fin 3) = (i 2).val / 128 := congrFun ht 2
  refine ⟨t, flush0_2 t, ?_⟩
  rw [mem_blk]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 128 ≤ (i 1).val ∧ (i 1).val < win0_2.index t (1 : Fin 3) * 128 + 128
    omega
  | ⟨2, _⟩ =>
    show win0_2.index t (2 : Fin 3) * 128 ≤ (i 2).val ∧ (i 2).val < win0_2.index t (2 : Fin 3) * 128 + 128
    omega

/-- THE RESULT ARRAY after the run is the sum of absolute differences of the two argument arrays. -/
theorem final (c : Dev nD) :
    (dats m 0 c).arrAt 2 cfg0.N
      = Cert.Sad.sad (m ((c : Thread nD τ).loc main_arg0)) (m ((c : Thread nD τ).loc main_arg1)) :=
  (dats m 0 c).arrAt_eq_of_cover 2 (Cert.Sad.sad (V m c main_arg0) (V m c main_arg1))
    (fun t _ => flushed_eq m c t) (fun i => covered i)

/-- THE KERNEL'S RUN: every weakly fair execution terminates with the result array at the sum of absolute differences of
    the arguments, the arguments unchanged. -/
theorem run : θ_run defs (onTc (τ := τ) (main (F := Ideal))) ⟨m, fun _ => 0, ρ⟩ fun r => ∀ c : Dev nD,
      r.2.mem ((c : Thread nD τ).loc main_v0)
          = Cert.Sad.sad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.Sad.Array

end
-- ==== Proof.SadReference.lean ====
/-
  The reference, read at an index, is the sum of absolute differences.

  The reference spreads the left array along a new third axis and the right array along a new second axis, so that entry
  `(b, n, m, d)` of the first spread array is `lhs[b, n, d]` and of the second is `rhs[b, m, d]`; subtracts; takes absolute
  values; sums over the last axis starting from zero; and negates. Entry `(b, n, m)` of its result is therefore
  `-(0 + ∑ d, |lhs[b, n, d] - rhs[b, m, d]|)`, and the leading zero adds nothing.
-/
import proofs.«132920_j37383395344618_1_alg».proof.Proof.Gen.ReferenceIdeal.Read
import proofs.«132920_j37383395344618_1_alg».proof.Proof.SadSpec
import Idealize.ShloMosaic.PureOps.Ideal.Laws
import Idealize.ShloMosaic.Lib.ValueIdx

noncomputable section

open scoped BigOperators

namespace Cert.Sad.Reference

open Cert.ReferenceIdeal Cert.ReferenceIdeal.Gen Cert.ReferenceIdeal.Read Idealize.ShloMosaic Idealize.ShloMosaic.ValueIdx

/-- Through the two spreads and the reduction's inserted feature coordinate, entry `(b, n, m)`, feature `d`, reads the left
    array at `(b, n, d)`. -/
theorem left_idx (b : Fin 4) (n m : Fin 1024) (d : Fin 64) :
    idx_main_v0 (idx_main_v2 (idx_main_v6 (ix3 b n m) d)) = ix3 b n d :=
  funext fun a => Fin.ext (by match a with | ⟨0, _⟩ => rfl | ⟨1, _⟩ => rfl | ⟨2, _⟩ => rfl)

/-- … and the right array at `(b, m, d)`. -/
theorem right_idx (b : Fin 4) (n m : Fin 1024) (d : Fin 64) :
    idx_main_v1 (idx_main_v3 (idx_main_v6 (ix3 b n m) d)) = ix3 b m d :=
  funext fun a => Fin.ext (by match a with | ⟨0, _⟩ => rfl | ⟨1, _⟩ => rfl | ⟨2, _⟩ => rfl)

/-- THE REFERENCE'S RESULT is the sum of absolute differences of its two arguments. -/
theorem result_eq (x0 x1 : Cert.Sad.SIn.Idx → EReal) :
    val_main_v7 (F := Ideal) x0 x1 = Cert.Sad.sad x0 x1 := by
  funext i
  obtain ⟨b, n, m, rfl⟩ : ∃ (b : Fin 4) (n m : Fin 1024), i = ix3 b n m := ⟨i 0, i 1, i 2, eq_ix3 i⟩
  rw [val_main_v7_apply, val_main_v6_apply]
  simp only [val_main_v5_apply, val_main_v4_apply, val_main_v2_apply, val_main_v3_apply, val_main_v0_apply,
    val_main_v1_apply, val_main_cst_apply, left_idx, right_idx]
  rw [Cert.Sad.sad_ix3]
  unfold Cert.Sad.sadAt Cert.Sad.absDiff
  show -(Ideal.ofBits .f32 0x00000000#32 + ∑ d : Fin 64, max (x0 (ix3 b n d) - x1 (ix3 b m d)) (-(x0 (ix3 b n d) - x1 (ix3 b m d)))) = _
  rw [Ideal.ofBits_zero_f32, zero_add]

end Cert.Sad.Reference

end
-- ==== Proof.lean ====
/-
  The sum of absolute differences, kernel against reference.

  Both programs take a left array and a right array of shape [4, 1024, 64] and produce the [4, 1024, 1024] array whose
  entry `(b, n, m)` is `-∑ d, |lhs[b, n, d] - rhs[b, m, d]|`, the sum over the 64 features, on the extended reals
  (`Cert.Sad.sad`, Proof/SadSpec.lean).

  The kernel runs over a 4 × 8 × 8 grid. At point `(b, i, j)` it loads rows `128 i … 128 i + 127` of batch `b` of the
  left array and rows `128 j … 128 j + 127` of batch `b` of the right array, forms all 128 × 128 × 64 differences, takes
  absolute values, sums over the features and subtracts the sum from zero (Proof/SadBlock.lean); the 256 output blocks
  tile the result (Proof/SadSchedule.lean, Proof/SadArray.lean). The reference forms all 4 × 1024 × 1024 × 64 differences
  at once, takes absolute values, sums over the features from zero and negates (Proof/SadReference.lean). The two agree
  because `0 - s = -s` and `0 + s = s` at every extended real `s`: nothing here needs the inputs to be finite, and the
  precondition is never opened.

  The three frames are the generated frame runs (the reference's is its generated run with the result dropped); the
  idealization rewrote no operation, so there is nothing to preserve.
-/
import proofs.«132920_j37383395344618_1_alg».proof.Defs
import proofs.«132920_j37383395344618_1_alg».proof.Proof.Gen.Kernel
import proofs.«132920_j37383395344618_1_alg».proof.Proof.Gen.Kernel.Skeleton
import proofs.«132920_j37383395344618_1_alg».proof.Proof.Gen.Kernel.Launch
import proofs.«132920_j37383395344618_1_alg».proof.Proof.Gen.Kernel.Points
import proofs.«132920_j37383395344618_1_alg».proof.Proof.Gen.Kernel.Frame
import proofs.«132920_j37383395344618_1_alg».proof.Proof.Gen.KernelIdeal
import proofs.«132920_j37383395344618_1_alg».proof.Proof.Gen.KernelIdeal.Skeleton
import proofs.«132920_j37383395344618_1_alg».proof.Proof.Gen.KernelIdeal.Launch
import proofs.«132920_j37383395344618_1_alg».proof.Proof.Gen.KernelIdeal.Points
import proofs.«132920_j37383395344618_1_alg».proof.Proof.Gen.KernelIdeal.Frame
import proofs.«132920_j37383395344618_1_alg».proof.Proof.Gen.ReferenceIdeal
import proofs.«132920_j37383395344618_1_alg».proof.Proof.Gen.Pre_finite_inputs
import proofs.«132920_j37383395344618_1_alg».proof.Proof.Gen.KernelIdeal.Value
import proofs.«132920_j37383395344618_1_alg».proof.Proof.Gen.ReferenceIdeal.Run
import proofs.«132920_j37383395344618_1_alg».proof.Proof.Gen.ReferenceIdeal.Read
import proofs.«132920_j37383395344618_1_alg».proof.Proof.SadArray
import proofs.«132920_j37383395344618_1_alg».proof.Proof.SadReference
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is nine array operations in a row: it terminates, and writes only its own intermediate arrays. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: no operation was rewritten. -/
theorem preserves : Cert.preserves_Kernel_KernelIdeal := trivial

/-- From memories that agree on the two arguments, the kernel's result array and the reference's are both the sum of
    absolute differences of those arguments. -/
theorem algebraic : Cert.algebraic_KernelIdeal_ReferenceIdeal := by
  intro m ρ m' ρ' _ hagree
  refine ⟨_, Cert.Sad.Array.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v7_eq _ _).trans (Cert.Sad.Reference.result_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
